-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S_, .i32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_cst_3 : Ref sig .tc := ⟨.hbm, 27, rfl⟩
abbrev main_call0_call0_v13 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.RowNorm.lean ====
/-
  One normalised row. For a row `v` of 1024 extended reals, entry `k` of the normalised row is
  `(v k − μ) / √(Σ_j (v j − μ)² / 1023)` with `μ = (Σ_j v j) / 1024`: the row centred at its mean and divided by its
  unbiased standard deviation. Both programs compute exactly this, in this order of operations, so nothing of real
  arithmetic beyond the two literals' values is needed: `1024` and `1023` as floats, and `1024 − 1 = 1023`, which is how
  the reference spells the divisor of the variance.
-/
import Idealize.ShloMosaic.PureOps.Ideal
import Idealize.ShloMosaic.PureOps.Ideal.Laws
import Idealize.ShloMosaic.Lib.ValueIdx

noncomputable section

namespace Cert.RowNorm

open Idealize.ShloMosaic

/-- The float `1024.0` denotes the real `1024`. -/
theorem ofBits_1024 : Ideal.ofBits .f32 0x44800000#32 = ((1024 : ℝ) : EReal) := by
  simp [Ideal.ofBits, Ideal.ieee, -EReal.coe_mul]; norm_num

/-- The float `1023.0` denotes the real `1023`. -/
theorem ofBits_1023 : Ideal.ofBits .f32 0x447FC000#32 = ((1023 : ℝ) : EReal) := by
  simp [Ideal.ofBits, Ideal.ieee, -EReal.coe_mul]; norm_num

/-- The row length less the one degree of freedom the mean takes: `1024 − 1 = 1023`, the integer `1` converted exactly. -/
theorem length_sub_one :
    Ideal.ofBits .f32 0x44800000#32 - (((1#32 : BitVec 32).toInt : ℝ) : EReal) = Ideal.ofBits .f32 0x447FC000#32 := by
  rw [ofBits_1024, ofBits_1023, show ((1#32 : BitVec 32).toInt) = 1 from by decide, ← EReal.coe_sub]
  norm_num

/-- `1023` is above zero: the comparison that guards the variance's quotient is true. -/
theorem dof_pos : Ideal.cmp .ogt (Ideal.ofBits .f32 0x447FC000#32) (Ideal.ofBits .f32 0x00000000#32) = 1#1 := by
  rw [ofBits_1023, Ideal.ofBits_zero_f32]
  have h : (0 : EReal) < ((1023 : ℝ) : EReal) := by exact_mod_cast (by norm_num : (0 : ℝ) < 1023)
  simp [Ideal.cmp, h]

/-- The mean of a row: its sum divided by `1024`. -/
def mean (v : Fin 1024 → EReal) : EReal := Ideal.div (∑ j : Fin 1024, v j) (Ideal.ofBits .f32 0x44800000#32)

/-- The unbiased standard deviation of a row: the root of the sum of squared deviations from the mean over `1023`. -/
def std (v : Fin 1024 → EReal) : EReal :=
  Ideal.sqrt (Ideal.div (∑ j : Fin 1024, (v j - mean v) * (v j - mean v)) (Ideal.ofBits .f32 0x447FC000#32))

/-- Entry `k` of the normalised row. -/
def normed (v : Fin 1024 → EReal) (k : Fin 1024) : EReal := Ideal.div (v k - mean v) (std v)

/-- The whole result over a 65536 × 1024 array `X`, a scale `w` and a shift `b` along the rows: at (r, q), entry `q` of the
    normalised row `r` of `X`, times `w q`, plus `b q`. -/
def affine (X : (⟨2, ![65536, 1024]⟩ : Shape).Idx → EReal) (w b : (⟨1, ![1024]⟩ : Shape).Idx → EReal) :
    (⟨2, ![65536, 1024]⟩ : Shape).Idx → EReal :=
  fun i => normed (fun j => X (ValueIdx.ix2 (i 0 : Fin 65536) j)) (i 1)
    * w (ValueIdx.ix1 (i 1 : Fin 1024)) + b (ValueIdx.ix1 (i 1 : Fin 1024))

end Cert.RowNorm

end
-- ==== Proof.KernelBlocks.lean ====
/-
  The kernel's side. Each of the 64 grid points takes 1024 whole rows of the input and writes the same 1024 rows of the
  output, so a row never meets another point's rows: entry (p, q) of the block a point leaves is entry `q` of the
  normalised row `p` of the block it read, times entry `q` of the scale, plus entry `q` of the shift. Row `p` of point
  `t`'s block is row `1024·t + p` of the array, the blocks tile the rows, and so the output array ends holding, at (r, q),
  the normalised row `r` of the input at `q`, scaled and shifted.
-/
import proofs.«131635_j45191645888570_1_alg».proof.Proof.Gen.KernelIdeal.Value
import proofs.«131635_j45191645888570_1_alg».proof.Proof.RowNorm
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

/-! ## One block: what the body leaves, entry by entry -/

/-- A lane sum of a 1024 × 1024 block, read at row `p`: the sum of the row's entries. -/
theorem laneSum_apply (v : FVec Ideal S1024x1024 .f32) (p : Fin 1024) :
    (multiReduction .add [1] S1024 v 0x00000000#32 reduces_S1024x1024_S1024 (.inl rfl) rfl) (ix1 p) = ∑ k : Fin 1024, v (ix2 p k) := by
  refine (Ideal.multiReduction_add_single v 0x00000000#32 reduces_S1024x1024_S1024 (.inl rfl) rfl (ix1 p)).trans ?_
  refine Finset.sum_congr rfl fun k _ => congrArg v ?_
  funext a
  match a with
  | ⟨0, _⟩ => rfl
  | ⟨1, _⟩ => rfl

/-- The block with each row's mean (its lane sum over `1024`, laid back along the row) taken off the row. -/
def centredBlk (P0 : FVec Ideal S1024x1024 .f32) : FVec Ideal S1024x1024 .f32 :=
  subf P0 (broadcastTo S1024x1024 (divf (shapeCast S1024x1 (multiReduction .add [1] S1024 P0 0x00000000#32 reduces_S1024x1024_S1024 (.inl rfl) rfl) shapeCasts_S1024_S1024x1) (broadcast S1024x1 (Scalar.ofBits .f32 0x44800000#32))) broadcasts_S1024x1_S1024x1024)

/-- Its entry (p, k): the block's entry less the mean of row `p`. -/
theorem centredBlk_apply (P0 : FVec Ideal S1024x1024 .f32) (p k : Fin 1024) :
    centredBlk P0 (ix2 p k) = P0 (ix2 p k) - RowNorm.mean (fun j => P0 (ix2 p j)) := by
  unfold centredBlk
  show P0 (ix2 p k) - (broadcastTo S1024x1024 _ broadcasts_S1024x1_S1024x1024) (ix2 p k) = _
  congr 1
  refine (broadcastTo_apply _ broadcasts_S1024x1_S1024x1024 (ix2 p k) (ix2 p (0 : Fin 1)) ?_).trans ?_
  · intro a
    match a with
    | ⟨0, _⟩ => show p.val = (if (1024 : Nat) = 1 then 0 else p.val); rw [if_neg (by decide)]
    | ⟨1, _⟩ => show 0 = (if (1 : Nat) = 1 then 0 else k.val); rw [if_pos rfl]
  · show Ideal.div ((shapeCast S1024x1 _ shapeCasts_S1024_S1024x1) (ix2 p (0 : Fin 1))) (Ideal.ofBits .f32 0x44800000#32) = RowNorm.mean _
    unfold RowNorm.mean
    congr 1
    refine (shapeCast_apply _ shapeCasts_S1024_S1024x1 (ix2 p (0 : Fin 1)) (ix1 p) ?_).trans (laneSum_apply P0 p)
    rw [Shape.rowMajor_val_one, Shape.rowMajor_val_two]
    show p.val = p.val * 1 + 0
    omega

/-- ENTRY (p, q) OF THE BLOCK THE BODY LEAVES: entry `q` of the normalised row `p` of the input block, times the scale's
    entry `q`, plus the shift's. -/
theorem block_entry (P0 : FVec Ideal S1024x1024 .f32) (P1 P2 : FVec Ideal S1x1024 .f32) (p q : Fin 1024) :
    E3 (F := Ideal) P0 P1 P2 (ix2 p q)
      = RowNorm.normed (fun j => P0 (ix2 p j)) q * P1 (ix2 (0 : Fin 1) q) + P2 (ix2 (0 : Fin 1) q) := by
  have e0 : ix3_0 (ix2 p q) = ix2 p q := funext fun a => by match a with | ⟨0, _⟩ => rfl | ⟨1, _⟩ => rfl
  have e1 : ix3_1 (ix2 p q) = ix1 p := funext fun a => by match a with | ⟨0, _⟩ => rfl
  have e2 : ix3_2 (ix2 p q) = ix1 p := funext fun a => by match a with | ⟨0, _⟩ => rfl
  have e3 : ix3_3 (ix2 p q) = ix2 (0 : Fin 1) q := funext fun a => by match a with | ⟨0, _⟩ => rfl | ⟨1, _⟩ => rfl
  have e4 : ix3_4 (ix2 p q) = ix2 (0 : Fin 1) q := funext fun a => by match a with | ⟨0, _⟩ => rfl | ⟨1, _⟩ => rfl
  have hsq : (multiReduction .add [1] S1024 (mulf (centredBlk P0) (centredBlk P0)) 0x00000000#32 reduces_S1024x1024_S1024 (.inl rfl) rfl) (ix1 p)
      = ∑ j : Fin 1024, (P0 (ix2 p j) - RowNorm.mean (fun j => P0 (ix2 p j))) * (P0 (ix2 p j) - RowNorm.mean (fun j => P0 (ix2 p j))) := by
    refine (laneSum_apply _ p).trans (Finset.sum_congr rfl fun j _ => ?_)
    show centredBlk P0 (ix2 p j) * centredBlk P0 (ix2 p j) = _
    rw [centredBlk_apply]
  show Ideal.div (P0 (ix3_0 (ix2 p q)) - Ideal.div ((multiReduction .add [1] S1024 P0 0x00000000#32 reduces_S1024x1024_S1024 (.inl rfl) rfl) (ix3_1 (ix2 p q))) (Ideal.ofBits .f32 0x44800000#32))
        (Ideal.sqrt (Ideal.div ((multiReduction .add [1] S1024 (mulf (centredBlk P0) (centredBlk P0)) 0x00000000#32 reduces_S1024x1024_S1024 (.inl rfl) rfl) (ix3_2 (ix2 p q))) (Ideal.ofBits .f32 0x447FC000#32)))
      * P1 (ix3_3 (ix2 p q)) + P2 (ix3_4 (ix2 p q)) = _
  rw [e0, e1, e2, e3, e4, laneSum_apply, hsq]
  rfl

/-- The same at any index of the block. -/
theorem block_entry' (P0 : FVec Ideal S1024x1024 .f32) (P1 P2 : FVec Ideal S1x1024 .f32) (y : S1024x1024.Idx) :
    E3 (F := Ideal) P0 P1 P2 y
      = RowNorm.normed (fun j => P0 (ix2 (y 0 : Fin 1024) j)) (y 1) * P1 (ix2 (0 : Fin 1) (y 1 : Fin 1024)) + P2 (ix2 (0 : Fin 1) (y 1 : Fin 1024)) := by
  obtain ⟨p, q, rfl⟩ : ∃ (p q : Fin 1024), y = ix2 p q := ⟨y 0, y 1, eq_ix2 y⟩
  exact block_entry P0 P1 P2 p q

theorem hz : (![0, 0] : Fin 2 → Nat) = fun _ => 0 := funext fun a => by fin_cases a <;> rfl

/-- What the body leaves in the output's staging buffer, from the three blocks it loads whole: that function of them. -/
theorem out_apply (x0 : Vec Ideal S1024x1024 .f32) (x1 x2 : Vec Ideal S1x1024 .f32) (y : S1024x1024.Idx) :
    out0_3 (F := Ideal) x0 x1 x2 y = E3 (F := Ideal) x0 x1 x2 y := by
  have h0 : View.ld x0 r0_0 = x0 := View.ld_unit_zero (S := S1024x1024) hz _ x0
  have h1 : View.ld x1 r0_1 = x1 := View.ld_unit_zero (S := S1x1024) hz _ x1
  have h2 : View.ld x2 r0_1 = x2 := View.ld_unit_zero (S := S1x1024) hz _ x2
  unfold out0_3
  rw [h0, h1, h2]
  exact canon3_eq x0 x1 x2 y

/-! ## From the blocks to the array -/

variable (m : (ℓ : Loc nD τ sig) → Buf (Elt Ideal) ℓ) (ρ : Dev nD → PrngReg)

/-- The index maps over the 64 grid points: point `t` takes block row `t` of the input and of the output, at block column
    `0`; the scale and the shift are each their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output as ONE function of the three arrays the input windows stage: at (r, q), entry `q` of the normalised row
    `r` of `X`, times the one-row scale at `q`, plus the one-row shift at `q`. -/
def G (X : FVec Ideal S65536x1024 .f32) (W B : FVec Ideal S1x1024 .f32) : FVec Ideal S65536x1024 .f32 :=
  fun i => RowNorm.normed (fun j => X (ix2 (i 0 : Fin 65536) j)) (i 1)
    * W (ix2 (0 : Fin 1) (i 1 : Fin 1024)) + B (ix2 (0 : Fin 1) (i 1 : Fin 1024))

/-- `G` at an index whose coordinates are known. -/
theorem G_apply_of (X : FVec Ideal S65536x1024 .f32) (W B : FVec Ideal S1x1024 .f32) (i : S65536x1024.Idx)
    (r : Fin 65536) (q : Fin 1024) (h0 : (i 0).val = r.val) (h1 : (i 1).val = q.val) :
    G X W B i = RowNorm.normed (fun j => X (ix2 r j)) q * W (ix2 (0 : Fin 1) q) + B (ix2 (0 : Fin 1) q) := by
  obtain rfl : i = ix2 r q := funext fun a => Fin.ext (by match a with | ⟨0, _⟩ => exact h0 | ⟨1, _⟩ => exact h1)
  rfl

/-- Row `p` of the input block at point `t` is row `1024·t + p` of the input array. -/
theorem iblk0_apply (c : Dev nD) (t : Fin cfg0.N) (x : S1024x1024.Idx) (k : S65536x1024.Idx)
    (hk0 : (k 0).val = 1024 * t.val + (x 0).val) (hk1 : (k 1).val = (x 1).val) :
    (iblk m c 0 t : Vec Ideal S1024x1024 .f32) x = (V m c main_arg0 : S65536x1024.Idx → EReal) k := by
  obtain ⟨a0, a1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * (x 0).val = (k 0).val; rw [a0, hk0]; omega
  | ⟨1, _⟩ => show win0_0.index t (1 : Fin 2) * 1024 + 1 * (x 1).val = (k 1).val; rw [a1, hk1]; omega

/-- The scale's block at every point is the whole one-row array. -/
theorem iblk1_apply (c : Dev nD) (t : Fin cfg0.N) (x : S1x1024.Idx) :
    (iblk m c 1 t : Vec Ideal S1x1024 .f32) x = (V m c main_v0 : S1x1024.Idx → EReal) x := by
  obtain ⟨-, -, b0, b1, -⟩ := idx_facts t
  unfold iblk
  rw [View.read_apply]
  show V m c main_v0 _ = V m c main_v0 _
  congr 1
  funext a
  apply Fin.ext
  match a with
  | ⟨0, _⟩ => show win0_1.index t (0 : Fin 2) * 1 + 1 * (x 0).val = (x 0).val; rw [b0]; omega
  | ⟨1, _⟩ => show win0_1.index t (1 : Fin 2) * 1024 + 1 * (x 1).val = (x 1).val; rw [b1]; omega

/-- The shift's block likewise. -/
theorem iblk2_apply (c : Dev nD) (t : Fin cfg0.N) (x : S1x1024.Idx) :
    (iblk m c 2 t : Vec Ideal S1x1024 .f32) x = (V m c main_v1 : S1x1024.Idx → EReal) x := by
  obtain ⟨-, -, -, -, c0, c1, -⟩ := idx_facts t
  unfold iblk
  rw [View.read_apply]
  show V m c main_v1 _ = V m c main_v1 _
  congr 1
  funext a
  apply Fin.ext
  match a with
  | ⟨0, _⟩ => show win0_2.index t (0 : Fin 2) * 1 + 1 * (x 0).val = (x 0).val; rw [c0]; omega
  | ⟨1, _⟩ => show win0_2.index t (1 : Fin 2) * 1024 + 1 * (x 1).val = (x 1).val; rw [c1]; omega

/-- WHAT POINT `t` WRITES BACK is block `t` of `G` of the arrays as the region finds them. -/
theorem flushed_eq (c : Dev nD) (t : Fin cfg0.N) :
    (dats m 0 c).flushed 3 t = ((cfg0.win 3).blk t).view.read (Elt Ideal) (G (V m c main_arg0) (V m c main_v0) (V m c main_v1)) := by
  rw [flushed3]
  have hN : cfg0.N = 64 := N_0
  have ht : t.val < 64 := hN ▸ t.isLt
  obtain ⟨-, -, -, -, -, -, d0, d1⟩ := idx_facts t
  funext y
  have hy0 : (y 0).val < 1024 := (y 0).isLt
  have hy1 : (y 1).val < 1024 := (y 1).isLt
  show out0_3 (iblk m c 0 t) (iblk m c 1 t) (iblk m c 2 t) y
    = G (V m c main_arg0) (V m c main_v0) (V m c main_v1) (((cfg0.win 3).blk t).view.emb y)
  refine ((out_apply (iblk m c 0 t) (iblk m c 1 t) (iblk m c 2 t) y).trans
    (block_entry' (iblk m c 0 t) (iblk m c 1 t) (iblk m c 2 t) y)).trans ?_
  refine Eq.trans ?_ (G_apply_of (V m c main_arg0) (V m c main_v0) (V m c main_v1) (((cfg0.win 3).blk t).view.emb y)
    ⟨1024 * t.val + (y 0).val, by omega⟩ ⟨(y 1).val, hy1⟩ ?_ ?_).symm
  · have r0 : (fun j : Fin 1024 => (iblk m c 0 t : Vec Ideal S1024x1024 .f32) (ix2 (⟨(y 0).val, hy0⟩ : Fin 1024) j))
        = fun j : Fin 1024 => (V m c main_arg0 : S65536x1024.Idx → EReal) (ix2 (⟨1024 * t.val + (y 0).val, by omega⟩ : Fin 65536) j) :=
      funext fun j => iblk0_apply m c t _ _ rfl rfl
    have r1 := iblk1_apply m c t (ix2 (0 : Fin 1) (⟨(y 1).val, hy1⟩ : Fin 1024))
    have r2 := iblk2_apply m c t (ix2 (0 : Fin 1) (⟨(y 1).val, hy1⟩ : Fin 1024))
    show RowNorm.normed (fun j : Fin 1024 => (iblk m c 0 t : Vec Ideal S1024x1024 .f32) (ix2 (⟨(y 0).val, hy0⟩ : Fin 1024) j)) ⟨(y 1).val, hy1⟩
        * (iblk m c 1 t : Vec Ideal S1x1024 .f32) (ix2 (0 : Fin 1) (⟨(y 1).val, hy1⟩ : Fin 1024))
        + (iblk m c 2 t : Vec Ideal S1x1024 .f32) (ix2 (0 : Fin 1) (⟨(y 1).val, hy1⟩ : Fin 1024)) = _
    rw [r0, r1, r2]
  · show win0_3.index t (0 : Fin 2) * 1024 + 1 * (y 0).val = 1024 * t.val + (y 0).val
    rw [d0]; omega
  · show win0_3.index t (1 : Fin 2) * 1024 + 1 * (y 1).val = (y 1).val
    rw [d1]; omega

/-- An index of the array is in point `t`'s block iff each coordinate is in the block's range on its axis. -/
theorem mem_blk (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- The blocks tile the rows: row `r` is in the block of point `r / 1024`. -/
theorem covered (i : S65536x1024.Idx) :
    ∃ t : Fin cfg0.N, (cfg0.win 3).flush t = true ∧ i ∈ ((cfg0.win 3).blk t).view.set := by
  have hN : cfg0.N = 64 := N_0
  have hi0 : (i 0).val < 65536 := (i 0).isLt
  have hi1 : (i 1).val < 1024 := (i 1).isLt
  obtain ⟨t, ht⟩ : ∃ t : Fin cfg0.N, t.val = (i 0).val / 1024 := ⟨⟨(i 0).val / 1024, by rw [hN]; omega⟩, rfl⟩
  obtain ⟨-, -, -, -, -, -, d0, d1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [d0, ht]; omega
  | ⟨1, _⟩ =>
    show win0_3.index t (1 : Fin 2) * 1024 ≤ (i 1).val ∧ (i 1).val < win0_3.index t (1 : Fin 2) * 1024 + 1024
    rw [d1]; omega

/-- THE OUTPUT ARRAY after the run is `G` of the arrays as the region finds them. -/
theorem final (c : Dev nD) :
    (dats m 0 c).arrAt 3 cfg0.N = G (V m c main_arg0) (V m c main_v0) (V m c main_v1) :=
  (dats m 0 c).arrAt_eq_of_cover 3 (G (V m c main_arg0) (V m c main_v0) (V m c main_v1))
    (fun t _ => flushed_eq m c t) covered

/-! ## The two reshaped operands, and the run -/

/-- The one-row scale the region finds is the scale argument, reshaped. -/
theorem scale_row (c : Dev nD) :
    (V m c main_v0 : S1x1024.Idx → EReal) = shapeCast S1x1024 (m ((c : Thread nD τ).loc main_arg1)) shapeCasts_S1024_S1x1024 := by
  dsimp only [V, hostOps0]; after_results; rfl

/-- The one-row shift likewise. -/
theorem shift_row (c : Dev nD) :
    (V m c main_v1 : S1x1024.Idx → EReal) = shapeCast S1x1024 (m ((c : Thread nD τ).loc main_arg2)) shapeCasts_S1024_S1x1024 := by
  dsimp only [V, hostOps0]; after_results; rfl

/-- A vector of 1024 entries reshaped to one row, read at (0, q): the vector at `q`. -/
theorem oneRow_apply (w : S1024.Idx → EReal) (q : Fin 1024) :
    shapeCast S1x1024 w shapeCasts_S1024_S1x1024 (ix2 (0 : Fin 1) q) = w (ix1 q) := by
  refine shapeCast_apply w shapeCasts_S1024_S1x1024 (ix2 (0 : Fin 1) q) (ix1 q) ?_
  rw [Shape.rowMajor_val_one, Shape.rowMajor_val_two]
  show q.val = 0 * 1024 + q.val
  omega

/-- So the output array is the row normalisation of the input argument, scaled and shifted by the other two. -/
theorem G_eq_affine (c : Dev nD) :
    G (V m c main_arg0) (V m c main_v0) (V m c main_v1)
      = RowNorm.affine (m ((c : Thread nD τ).loc main_arg0)) (m ((c : Thread nD τ).loc main_arg1)) (m ((c : Thread nD τ).loc main_arg2)) := by
  funext i
  obtain ⟨r, q, rfl⟩ : ∃ (r : Fin 65536) (q : Fin 1024), i = ix2 r q := ⟨i 0, i 1, eq_ix2 i⟩
  rw [G_apply_of _ _ _ (ix2 r q) r q rfl rfl, V_main_arg0 m c, scale_row m c, shift_row m c, oneRow_apply, oneRow_apply]
  rfl

/-- The run, read: the result array at the row normalisation of the arguments, the arguments unchanged. -/
theorem run : θ_run defs (onTc (τ := τ) (main (F := Ideal))) ⟨m, fun _ => 0, ρ⟩ fun r => ∀ c : Dev nD,
      r.2.mem ((c : Thread nD τ).loc main_v2)
          = RowNorm.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (G_eq_affine m c)), (h c).2⟩)
    (run_blocks m ρ)

end Cert.KernelIdeal.Hand

end
-- ==== Proof.RefRun.lean ====
/-
  The reference's run. Its @main is a straight line once the three functions jax outlined for `jnp.std` (the standard
  deviation, the variance under it, and the `where` that guards the variance's quotient) are unfolded at their calls:
  forty-one host operations. Every weakly fair execution terminates with the result buffer at the operations' composed
  term of the three arguments, named here piece by piece — the column of row means, the centred array, the divisor
  `1024 − 1`, the column of variances, the guarded column, its root — and the arguments unchanged.
-/
import proofs.«131635_j45191645888570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the arguments -/

/-- The column of row means: each row's sum (from the initial value zero) over `1024`. -/
def meanCol (x : FVec F S65536x1024 .f32) : FVec F S65536x1 .f32 :=
  Host.divf (broadcastInDim S65536x1 ![0] bcast_S65536_S65536x1_0 (Host.reduceAdd x (constant S_ .f32 0x00000000#32) reducesTo_S65536x1024_S65536_d1 h_S_))
    (broadcastInDim S65536x1 ![] bcast_S_S65536x1 (constant S_ .f32 0x44800000#32))

/-- The array with each row's mean taken off every entry of the row. -/
def centred (x : FVec F S65536x1024 .f32) : FVec F S65536x1024 .f32 :=
  subf x (broadcastInDim S65536x1024 ![0, 1] bcast_S65536x1_S65536x1024_0_1 (meanCol x))

/-- The variance's divisor: the row length less the integer `1`, converted. -/
def dof : FVec F S_ .f32 := subf (constant S_ .f32 0x44800000#32) (sitofp (F := F) .f32 (constantI S_ 32 1#32))

/-- The column of row variances: each row's sum of squared deviations over that divisor. -/
def varCol (x : FVec F S65536x1024 .f32) : FVec F S65536x1 .f32 :=
  Host.divf (broadcastInDim S65536x1 ![0] bcast_S65536_S65536x1_0 (Host.reduceAdd (mulf (centred x) (centred x)) (constant S_ .f32 0x00000000#32) reducesTo_S65536x1024_S65536_d1 h_S_))
    (broadcastInDim S65536x1 ![] bcast_S_S65536x1 dof)

/-- The variances where the divisor is positive, a not-a-number elsewhere. -/
def guardedVarCol (x : FVec F S65536x1024 .f32) : FVec F S65536x1 .f32 :=
  select (broadcastInDim S65536x1 ![] bcast_S_S65536x1 (cmpf .ogt (dof (F := F)) (constant S_ .f32 0x00000000#32))) (varCol x)
    (broadcastInDim S65536x1 ![] bcast_S_S65536x1 (constant S_ .f32 0x7FC00000#32))

/-- The column of row standard deviations. -/
def stdCol (x : FVec F S65536x1024 .f32) : FVec F S65536x1 .f32 := Host.sqrt (guardedVarCol x)

/-- The reference's result: the centred array over the standard deviations, scaled by `w` along each row and shifted by `b`. -/
def out (x : FVec F S65536x1024 .f32) (w b : FVec F S1024 .f32) : FVec F S65536x1024 .f32 :=
  addf (mulf (Host.divf (centred x) (broadcastInDim S65536x1024 ![0, 1] bcast_S65536x1_S65536x1024_0_1 (stdCol x)))
      (broadcastInDim S65536x1024 ![0, 1] bcast_S1x1024_S65536x1024_0_1 (broadcastInDim S1x1024 ![1] bcast_S1024_S1x1024_1 w)))
    (broadcastInDim S65536x1024 ![0, 1] bcast_S1x1024_S65536x1024_0_1 (broadcastInDim S1x1024 ![1] bcast_S1024_S1x1024_1 b))

/-! ## @main as a list of operations -/

/-- @main's operations in order, the calls unfolded: seven of its own (the row means and the integer `1`), the
    variance function's twenty, the guard's three inside it, the root, then @main's last ten. -/
abbrev ops : List (HloOp τ sig (Elt F)) :=
  [ nullary main_cst (constant S_ .f32 0x00000000#32),
    binary main_arg0 main_cst main_v0 (fun x v => Host.reduceAdd x v reducesTo_S65536x1024_S65536_d1 h_S_),
    unary main_v0 main_v1 (broadcastInDim S65536x1 ![0] bcast_S65536_S65536x1_0),
    nullary main_cst_0 (constant S_ .f32 0x44800000#32),
    unary main_cst_0 main_v2 (broadcastInDim S65536x1 ![] bcast_S_S65536x1),
    binary main_v1 main_v2 main_v3 Host.divf,
    nullary main_c (constantI S_ 32 1#32),
    TRef.nullary main_call0.call0.cst (constant S_ .f32 0x00000000#32),
    TRef.binary (.of main_arg0) main_call0.call0.cst main_call0.call0.v0 (fun x v => Host.reduceAdd x v reducesTo_S65536x1024_S65536_d1 h_S_),
    TRef.unary main_call0.call0.v0 main_call0.call0.v1 (broadcastInDim S65536x1 ![0] bcast_S65536_S65536x1_0),
    TRef.nullary main_call0.call0.cst_0 (constant S_ .f32 0x44800000#32),
    TRef.unary main_call0.call0.cst_0 main_call0.call0.v2 (broadcastInDim S65536x1 ![] bcast_S_S65536x1),
    TRef.binary main_call0.call0.v1 main_call0.call0.v2 main_call0.call0.v3 Host.divf,
    TRef.unary main_call0.call0.v3 main_call0.call0.v4 (broadcastInDim S65536x1024 ![0, 1] bcast_S65536x1_S65536x1024_0_1),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x44800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S65536x1024_S65536_d1 h_S_),
    TRef.unary main_call0.call0.v9 main_call0.call0.v10 (broadcastInDim S65536x1 ![0] bcast_S65536_S65536x1_0),
    TRef.unary main_call0.call0.v8 main_call0.call0.v11 (broadcastInDim S65536x1 ![] bcast_S_S65536x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S65536x1 ![] bcast_S_S65536x1),
    TRef.ternary main_call0.call0.v13 main_call0.call0.v12 main_call0.call0.call0.v1 main_call0.call0.call0.v2 (fun p a b => select (broadcastInDim S65536x1 ![] bcast_S_S65536x1 p) a b),
    TRef.unary main_call0.call0.call0.v2 main_call0.v1 Host.sqrt,
    unary main_v3 main_v5 (broadcastInDim S65536x1024 ![0, 1] bcast_S65536x1_S65536x1024_0_1),
    binary main_arg0 main_v5 main_v6 subf,
    unary main_v4 main_v7 (broadcastInDim S65536x1024 ![0, 1] bcast_S65536x1_S65536x1024_0_1),
    binary main_v6 main_v7 main_v8 Host.divf,
    unary main_arg1 main_v9 (broadcastInDim S1x1024 ![1] bcast_S1024_S1x1024_1),
    unary main_v9 main_v10 (broadcastInDim S65536x1024 ![0, 1] bcast_S1x1024_S65536x1024_0_1),
    binary main_v8 main_v10 main_v11 mulf,
    unary main_arg2 main_v12 (broadcastInDim S1x1024 ![1] bcast_S1024_S1x1024_1),
    unary main_v12 main_v13 (broadcastInDim S65536x1024 ![0, 1] bcast_S1x1024_S65536x1024_0_1),
    binary main_v11 main_v13 main_v14 addf ]

-- forty-one binds re-associated: the rewrite under the chain recurses once per statement
set_option maxRecDepth 2048 in
/-- @main is that straight line: the three functions unfolded at their calls and the calls' buffer records at their
    fields, both sides are one chain of host steps once sequencing is re-associated. -/
theorem main_eq (c : Dev nD) : main (F := F) c = seq ops := by
  simp only [main, fn_std.body, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub ..,
    unary_bufs_sub .., binary_bufs_sub .., unary_bufs_sub .., binary_bufs_sub .., unary_bufs_sub .., unary_bufs_sub ..,
    binary_bufs_sub .., unary_bufs_sub .., unary_bufs_sub .., binary_bufs_sub ..⟩

/-! ## The fold at the result and at the arguments -/

attribute [local irreducible] Host.reduceAdd in
set_option maxRecDepth 8192 in
/-- The fold of the operations at the result buffer is `out` of the arguments' contents: each operation's result read
    at its own buffer, every other buffer as it was. -/
theorem out_eq (V : Valuation τ sig (Elt F)) :
    after ops V (main_v14 : DevRef τ sig)
      = out (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

/-! ## The run -/

/-- On every device, for any float values, from any memory with zero counters: every weakly fair execution of @main
    terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Hand

end
-- ==== Proof.RefValue.lean ====
/-
  The reference's result, read at an index. At (r, q) the composed term of the reference's run is entry `q` of the
  normalised row `r` of the input, times the scale's entry `q`, plus the shift's: the row sums are host sums from the
  initial value zero, the divisor of the variance is `1024 − 1 = 1023`, which is positive, so the guard selects the
  variance and never the not-a-number, and the host's square root and quotient are the ideal ones.
-/
import proofs.«131635_j45191645888570_1_alg».proof.Proof.RefRun
import proofs.«131635_j45191645888570_1_alg».proof.Proof.RowNorm
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
open Idealize.ShloMosaic.ValueIdx

/-! ## The host's layout operations and sum at an index -/

/-- A vector of 65536 entries stood up as a column, read at row `r`. -/
theorem column_apply {α : Type} (v : S65536.Idx → α) (r : Fin 65536) :
    broadcastInDim S65536x1 ![0] bcast_S65536_S65536x1_0 v (ix2 r (0 : Fin 1)) = v (ix1 r) := by
  refine broadcastInDim_apply ![0] bcast_S65536_S65536x1_0 v (ix2 r (0 : Fin 1)) (ix1 r) ?_
  intro a
  match a with
  | ⟨0, _⟩ => show r.val = (if (65536 : Nat) = 1 then 0 else r.val); rw [if_neg (by decide)]

/-- A column laid along every row, read at (r, q): the column at row `r`. -/
theorem alongRows_apply {α : Type} (v : S65536x1.Idx → α) (r : Fin 65536) (q : Fin 1024) :
    broadcastInDim S65536x1024 ![0, 1] bcast_S65536x1_S65536x1024_0_1 v (ix2 r q) = v (ix2 r (0 : Fin 1)) := by
  refine broadcastInDim_apply ![0, 1] bcast_S65536x1_S65536x1024_0_1 v (ix2 r q) (ix2 r (0 : Fin 1)) ?_
  intro a
  match a with
  | ⟨0, _⟩ => show r.val = (if (65536 : Nat) = 1 then 0 else r.val); rw [if_neg (by decide)]
  | ⟨1, _⟩ => show 0 = (if (1 : Nat) = 1 then 0 else q.val); rw [if_pos rfl]

/-- A vector of 1024 entries laid down every row, read at (r, q): the vector at `q`. -/
theorem downRows_apply {α : Type} (w : S1024.Idx → α) (r : Fin 65536) (q : Fin 1024) :
    broadcastInDim S65536x1024 ![0, 1] bcast_S1x1024_S65536x1024_0_1 (broadcastInDim S1x1024 ![1] bcast_S1024_S1x1024_1 w) (ix2 r q)
      = w (ix1 q) := by
  refine (broadcastInDim_oneRow_apply bcast_S1x1024_S65536x1024_0_1 _ r q).trans ?_
  refine broadcastInDim_apply ![1] bcast_S1024_S1x1024_1 w (ix2 (0 : Fin 1) q) (ix1 q) ?_
  intro a
  match a with
  | ⟨0, _⟩ => show q.val = (if (1024 : Nat) = 1 then 0 else q.val); rw [if_neg (by decide)]

/-- The host's row sums from the initial value zero, read at row `r`: the sum of the row's entries. -/
theorem rowSum_apply (v : FVec Ideal S65536x1024 .f32) (r : Fin 65536) :
    Host.reduceAdd v (constant (F := Ideal) S_ .f32 0x00000000#32) reducesTo_S65536x1024_S65536_d1 h_S_ (ix1 r)
      = ∑ k : Fin 1024, v (ix2 r k) := by
  have h : S65536x1024.Reduces [1] S65536 := by decide
  refine (hostReduceAdd_apply v _ reducesTo_S65536x1024_S65536_d1 h_S_ (ix1 r)).trans ?_
  refine (Ideal.hostReduceAdd_single reducesTo_S65536x1024_S65536_d1 h v _ (ix1 r)).trans ?_
  show Ideal.ofBits .f32 0x00000000#32 + _ = _
  rw [Ideal.ofBits_zero_f32, zero_add]
  refine Finset.sum_congr rfl fun k _ => congrArg v ?_
  funext a
  match a with
  | ⟨0, _⟩ => rfl
  | ⟨1, _⟩ => rfl

/-! ## The pieces of the reference's term -/

/-- The mean column at row `r`: the mean of row `r`. -/
theorem meanCol_apply (x : FVec Ideal S65536x1024 .f32) (r : Fin 65536) :
    meanCol x (ix2 r (0 : Fin 1)) = RowNorm.mean (fun j => x (ix2 r j)) := by
  unfold meanCol RowNorm.mean
  rw [hostDivf_apply, column_apply, rowSum_apply, broadcastInDim_scalar_apply]
  rfl

/-- The centred array at (r, k): the entry less the mean of its row. -/
theorem centred_apply (x : FVec Ideal S65536x1024 .f32) (r : Fin 65536) (k : Fin 1024) :
    centred x (ix2 r k) = x (ix2 r k) - RowNorm.mean (fun j => x (ix2 r j)) := by
  unfold centred
  show x (ix2 r k) - broadcastInDim S65536x1024 ![0, 1] bcast_S65536x1_S65536x1024_0_1 (meanCol x) (ix2 r k) = _
  rw [alongRows_apply, meanCol_apply]

/-- The variance's divisor is `1023`. -/
theorem dof_apply : dof (F := Ideal) ix0 = Ideal.ofBits .f32 0x447FC000#32 := RowNorm.length_sub_one

/-- The variance column at row `r`: row `r`'s sum of squared deviations over `1023`. -/
theorem varCol_apply (x : FVec Ideal S65536x1024 .f32) (r : Fin 65536) :
    varCol x (ix2 r (0 : Fin 1))
      = Ideal.div (∑ j : Fin 1024, (x (ix2 r j) - RowNorm.mean (fun j => x (ix2 r j))) * (x (ix2 r j) - RowNorm.mean (fun j => x (ix2 r j))))
          (Ideal.ofBits .f32 0x447FC000#32) := by
  unfold varCol
  rw [hostDivf_apply, column_apply, rowSum_apply, broadcastInDim_scalar_apply, dof_apply]
  refine congrArg (fun s => Ideal.div s (Ideal.ofBits .f32 0x447FC000#32)) (Finset.sum_congr rfl fun j _ => ?_)
  rw [mulf_apply, centred_apply]

/-- The guard is true, so the guarded column is the variance column. -/
theorem guardedVarCol_apply (x : FVec Ideal S65536x1024 .f32) (r : Fin 65536) :
    guardedVarCol x (ix2 r (0 : Fin 1)) = varCol x (ix2 r (0 : Fin 1)) := by
  unfold guardedVarCol
  show Scalar.select (broadcastInDim S65536x1 ![] bcast_S_S65536x1 (cmpf .ogt (dof (F := Ideal)) (constant (F := Ideal) S_ .f32 0x00000000#32)) (ix2 r (0 : Fin 1))) _ _ = _
  rw [broadcastInDim_scalar_apply]
  show Scalar.select (Ideal.cmp .ogt (dof (F := Ideal) ix0) (Ideal.ofBits .f32 0x00000000#32)) _ _ = _
  rw [dof_apply, RowNorm.dof_pos, select_one]

/-- The standard-deviation column at row `r`: the unbiased standard deviation of row `r`. -/
theorem stdCol_apply (x : FVec Ideal S65536x1024 .f32) (r : Fin 65536) :
    stdCol x (ix2 r (0 : Fin 1)) = RowNorm.std (fun j => x (ix2 r j)) := by
  unfold stdCol RowNorm.std
  show Ideal.sqrt (guardedVarCol x (ix2 r (0 : Fin 1))) = _
  rw [guardedVarCol_apply, varCol_apply]

/-- THE REFERENCE'S RESULT is the row normalisation, scaled and shifted along the rows. -/
theorem out_eq_affine (x : FVec Ideal S65536x1024 .f32) (w b : FVec Ideal S1024 .f32) :
    out x w b = RowNorm.affine x w b := by
  funext i
  obtain ⟨r, q, rfl⟩ : ∃ (r : Fin 65536) (q : Fin 1024), i = ix2 r q := ⟨i 0, i 1, eq_ix2 i⟩
  unfold out RowNorm.affine RowNorm.normed
  show Ideal.div (centred x (ix2 r q)) (broadcastInDim S65536x1024 ![0, 1] bcast_S65536x1_S65536x1024_0_1 (stdCol x) (ix2 r q))
        * broadcastInDim S65536x1024 ![0, 1] bcast_S1x1024_S65536x1024_0_1 (broadcastInDim S1x1024 ![1] bcast_S1024_S1x1024_1 w) (ix2 r q)
      + broadcastInDim S65536x1024 ![0, 1] bcast_S1x1024_S65536x1024_0_1 (broadcastInDim S1x1024 ![1] bcast_S1024_S1x1024_1 b) (ix2 r q) = _
  rw [centred_apply, alongRows_apply, stdCol_apply, downRows_apply, downRows_apply]

end Cert.ReferenceIdeal.Hand

end
-- ==== Proof.lean ====
/-
  Row normalisation with a diagonal affine map: for an input `X` of 65536 rows of 1024 entries, a scale `w` and a shift
  `b` of 1024 entries, the result at (r, q) is `(X r q − μ_r) / σ_r · w q + b q`, with `μ_r` the mean of row `r` and
  `σ_r` its unbiased standard deviation (the root of the sum of squared deviations over `1023`).

  The kernel computes this 1024 rows at a time; a row lies in one block only, so each block is the same function of its
  own rows, and the blocks tile the array (Proof/KernelBlocks.lean). The reference computes it over the whole array by
  host operations; its divisor is spelt `1024 − 1` and guarded by a comparison with zero that is true (Proof/RefRun.lean,
  Proof/RefValue.lean). At the extended reals both are the one function `RowNorm.affine` of the arguments
  (Proof/RowNorm.lean), operation for operation, so no law of arithmetic is used beyond the values of the literals
  `1024` and `1023`, and the finiteness of the inputs is not needed. Neither program's idealisation rewrote anything, so
  the kernel's idealisation is the kernel's own text.
-/
import proofs.«131635_j45191645888570_1_alg».proof.Defs
import proofs.«131635_j45191645888570_1_alg».proof.Proof.Gen.Kernel
import proofs.«131635_j45191645888570_1_alg».proof.Proof.Gen.Kernel.Frame
import proofs.«131635_j45191645888570_1_alg».proof.Proof.Gen.KernelIdeal
import proofs.«131635_j45191645888570_1_alg».proof.Proof.Gen.KernelIdeal.Frame
import proofs.«131635_j45191645888570_1_alg».proof.Proof.Gen.ReferenceIdeal
import proofs.«131635_j45191645888570_1_alg».proof.Proof.Gen.Pre_finite_inputs
import proofs.«131635_j45191645888570_1_alg».proof.Proof.RowNorm
import proofs.«131635_j45191645888570_1_alg».proof.Proof.KernelBlocks
import proofs.«131635_j45191645888570_1_alg».proof.Proof.RefRun
import proofs.«131635_j45191645888570_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealisation rewrote no operation. -/
theorem preserves : Cert.preserves_Kernel_KernelIdeal := trivial

/-- From memories that agree on the three arguments, the kernel's result array and the reference's both end at the row
    normalisation of the input, scaled and shifted: one function of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Hand.out_eq_affine _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
